-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x32x128 : Shape := ⟨3, ![50000, 32, 128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x32x128 : S_.BroadcastsInDim S50000x32x128 (![] : Fin 0 → Fin S50000x32x128.rank)
  reducesTo_S50000x32x128_S_d0_1_2 : S50000x32x128.ReducesTo [0, 1, 2] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S50000x128 .f32) (main_arg1 : FVec F S50000x32x128 .f32) (main_arg2 : FVec F S128x128 .f32) (main_arg3 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x32x128 .f32 := Host.absf main_arg1
  let main_cst_0 : FVec F S_ .f32 := constant S_ .f32 0x7F800000#32
  let main_v5 : FVec F S50000x32x128 .f32 := broadcastInDim S50000x32x128 ![] bcast_S_S50000x32x128 main_cst_0
  let main_v6 : IVec S50000x32x128 1 := cmpf .olt main_v4 main_v5
  let main_c_1 : IVec S_ 1 := constantI S_ 1 1#1
  let main_v7 : IVec S_ 1 := (fun x v => Host.reduce IntOp.andi x v reducesTo_S50000x32x128_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S50000x128 : Shape := ⟨2, ![50000, 128]⟩
abbrev S50000x32x128 : Shape := ⟨3, ![50000, 32, 128]⟩
abbrev S128x128 : Shape := ⟨2, ![128, 128]⟩
abbrev S1000x128 : Shape := ⟨2, ![1000, 128]⟩
abbrev S1000x32x128 : Shape := ⟨3, ![1000, 32, 128]⟩

abbrev nBuf : Space → Nat
  | .hbm => 9
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S50000x32x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .bf16⟩
  | .hbm, ⟨6, _⟩ => ⟨S128x128, .f32⟩
  | .hbm, ⟨7, _⟩ => ⟨S128x128, .bf16⟩
  | .hbm, ⟨8, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S1000x32x128, .f32⟩
  | .local _ .vmem, ⟨3, _⟩ => ⟨S1000x32x128, .f32⟩
  | .local _ .vmem, ⟨4, _⟩ => ⟨S128x128, .bf16⟩
  | .local _ .vmem, ⟨5, _⟩ => ⟨S128x128, .bf16⟩
  | .local _ .vmem, ⟨6, _⟩ => ⟨S1000x128, .f32⟩
  | .local _ .vmem, ⟨7, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S128x128_S128x128_1_0 : S128x128.Transposes [1, 0] S128x128
  bitsLt_bf16_f32 : FTy.bits .bf16 < FTy.bits .f32
  inb_S1000x32x128_S1000x32x128_0_0_0 : ∀ a, (![0, 0, 0] : Fin 3 → Nat) a + S1000x32x128.size a ≤ S1000x32x128.size a
  h_S1000x32x128 : 0 < S1000x32x128.numel
  reduces_S1000x32x128_S1000x128 : S1000x32x128.Reduces [1] S1000x128
  inb_S1000x128_S1000x128_0_0 : ∀ a, (![0, 0] : Fin 2 → Nat) a + S1000x128.size a ≤ S1000x128.size a
  h_S1000x128 : 0 < S1000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x32x128.size a ≤ S50000x32x128.size a
  hwx0_1 : ∀ i : grid0.Coords, EltTy.bits .f32 = 32 ∨ (Rect.block (s := S50000x32x128) S1000x32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x128.size a ≤ S50000x128.size a
  hwx0_4 : ∀ i : grid0.Coords, EltTy.bits .f32 = 32 ∨ (Rect.block (s := S50000x128) S1000x128.size (cc0_transform_4 i) (hinb0_4 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x32x128 : Shape := ⟨3, ![50000, 32, 128]⟩
abbrev S128x128 : Shape := ⟨2, ![128, 128]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x32x128, .f32⟩
  | .hbm, ⟨2, _⟩ => ⟨S128x128, .f32⟩
  | .hbm, ⟨3, _⟩ => ⟨S128x128, .f32⟩
  | .hbm, ⟨4, _⟩ => ⟨S_, .f32⟩
  | .hbm, ⟨5, _⟩ => ⟨S50000x128, .f32⟩
  | .hbm, ⟨6, _⟩ => ⟨S_, .f32⟩
  | .hbm, ⟨7, _⟩ => ⟨S50000x128, .f32⟩
  | .hbm, ⟨8, _⟩ => ⟨S50000x128, .f32⟩
  | .hbm, ⟨9, _⟩ => ⟨S128x128, .f32⟩
  | .hbm, ⟨10, _⟩ => ⟨S50000x128, .f32⟩
  | .hbm, ⟨11, _⟩ => ⟨S128x128, .f32⟩
  | .hbm, ⟨12, _⟩ => ⟨S50000x128, .f32⟩
  | .hbm, ⟨13, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  reducesTo_S50000x32x128_S50000x128_d1 : S50000x32x128.ReducesTo [1] S50000x128
  h_S_ : 0 < S_.numel
  bcast_S_S50000x128 : S_.BroadcastsInDim S50000x128 (![] : Fin 0 → Fin S50000x128.rank)
  transposes_S128x128_S128x128_1_0 : S128x128.Transposes [1, 0] S128x128
  dot_S50000x128_S128x128_S50000x128_1_0_0_1_n_n_wf : DotDims.WF S50000x128 S128x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibPlainDot.lean ====
/-
  The matrix product of an M×K array with a K×N array, read at an output index (r, q), is the sum over the one
  contracted coordinate k of the left operand at (r, k) times the right operand at (k, q). Stated once for the plain
  dimension numbers (contract the left operand's last axis with the right operand's first, no batch axis), for a
  product into a zero accumulator inside a kernel body and for the host's product, both over the extended reals.
  A program's own dimension-number record of this form is equal to the plain one by unfolding.
-/
import Idealize.ShloMosaic.PureOps.Ideal.Laws
import Idealize.ShloMosaic.Lib.ValueIdx

noncomputable section

open scoped BigOperators

namespace PlainDot

open Idealize.ShloMosaic Idealize.ShloMosaic.ValueIdx

variable (M K N : Nat)

/-- The left operand's index at output index `j` and contraction index `q`: row of `j`, … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and the contracted coordinate. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: the contracted coordinate, … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the column of `j`. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum, re-indexed by the one contracted coordinate. -/
theorem sum_eq (x : (⟨2, ![M, K]⟩ : Shape).Idx → EReal) (w : (⟨2, ![K, N]⟩ : Shape).Idx → EReal) (j : (⟨2, ![M, N]⟩ : Shape).Idx) :
    ∑ q : (DotDims.plain M K N).contr.Idx, x ((DotDims.plain M K N).lhsIdx j q) * w ((DotDims.plain M K N).rhsIdx j q)
      = ∑ k : Fin K, x (ix2 (n0 := M) (n1 := K) ⟨(j 0).val, (j 0).isLt⟩ k) * w (ix2 (n0 := K) (n1 := N) k ⟨(j 1).val, (j 1).isLt⟩) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (n0 := M) (n1 := K) ⟨(j 0).val, (j 0).isLt⟩ k := funext fun a => Fin.ext (by
    match a with
    | ⟨0, _⟩ => exact lhs0 M K N _ _
    | ⟨1, _⟩ => exact (lhs1 M K N _ _).trans hk)
  have er : (DotDims.plain M K N).rhsIdx j ((contrEquiv1 (DotDims.plain M K N) K rfl rfl).symm k)
      = ix2 (n0 := K) (n1 := N) k ⟨(j 1).val, (j 1).isLt⟩ := funext fun a => Fin.ext (by
    match a with
    | ⟨0, _⟩ => exact (rhs0 M K N _ _).trans hk
    | ⟨1, _⟩ => exact rhs1 M K N _ _)
  rw [el, er]

/-- A kernel's matrix product into the zero accumulator, at an index. -/
theorem matmul_zero_apply {φ₁ φ₂ : FTy} (x : FVec Ideal ⟨2, ![M, K]⟩ φ₁) (w : FVec Ideal ⟨2, ![K, N]⟩ φ₂) (j : (⟨2, ![M, N]⟩ : Shape).Idx) :
    FloatOps.matmul (DotDims.plain M K N) none x w (constant ⟨2, ![M, N]⟩ .f32 0x00000000#32) j
      = ∑ k : Fin K, x (ix2 (n0 := M) (n1 := K) ⟨(j 0).val, (j 0).isLt⟩ k) * w (ix2 (n0 := K) (n1 := N) k ⟨(j 1).val, (j 1).isLt⟩) := by
  rw [Ideal.matmul_constant_zero_apply]
  exact sum_eq M K N x w j

/-- The host's matrix product, at an index. -/
theorem dotGeneral_apply {φ₁ φ₂ : FTy} (sched : HostSchedule) (x : FVec Ideal ⟨2, ![M, K]⟩ φ₁) (w : FVec Ideal ⟨2, ![K, N]⟩ φ₂) (j : (⟨2, ![M, N]⟩ : Shape).Idx) :
    FloatOps.dotGeneral (DotDims.plain M K N) none sched x w j
      = ∑ k : Fin K, x (ix2 (n0 := M) (n1 := K) ⟨(j 0).val, (j 0).isLt⟩ k) * w (ix2 (n0 := K) (n1 := N) k ⟨(j 1).val, (j 1).isLt⟩) := by
  rw [Ideal.dotGeneral_apply]
  exact sum_eq M K N x w j

end PlainDot

end
-- ==== Proof.Spec.lean ====
/-
  The neighbour-mean aggregation layer as ONE function of its four argument arrays, index by index, over the
  extended reals. For a node `r` and an output feature `o`:

      out (r, o) = Σ_k x (r, k) · W_l (o, k)  +  Σ_k mean_r k · W_r (o, k),
      mean_r k   = (Σ_n neigh (r, n, k)) / 32.

  Both weight matrices are stored [out_features, in_features], so each is read TRANSPOSED by the products: the
  contracted coordinate `k` is the matrix's second axis. The divisor is the float literal 32.0, kept as its
  word: the same word is on both sides of the certificate and is never evaluated.
-/
import Idealize.ShloMosaic.PureOps.Ideal.Laws
import Idealize.ShloMosaic.Lib.ValueIdx

noncomputable section

open scoped BigOperators

namespace Sage

open Idealize.ShloMosaic Idealize.ShloMosaic.ValueIdx

/-- Feature `k` of node `r`'s neighbourhood mean: the sum over the 32 neighbours, divided by 32.0. -/
def neighMean (nx : (⟨3, ![50000, 32, 128]⟩ : Shape).Idx → EReal) (r : Fin 50000) (k : Fin 128) : EReal :=
  Ideal.div (∑ n : Fin 32, nx (ix3 r n k)) (Ideal.ofBits .f32 0x42000000#32)

/-- One output entry from a node's own feature row `xr`, its neighbourhood-mean row `ar`, and row `o` of each weight
    matrix (`wl`, `wr`): the two inner products, added. -/
def entry (xr ar wl wr : Fin 128 → EReal) : EReal :=
  (∑ k : Fin 128, xr k * wl k) + ∑ k : Fin 128, ar k * wr k

/-- The layer's output array. -/
def out (x : (⟨2, ![50000, 128]⟩ : Shape).Idx → EReal) (nx : (⟨3, ![50000, 32, 128]⟩ : Shape).Idx → EReal)
    (wl wr : (⟨2, ![128, 128]⟩ : Shape).Idx → EReal) : (⟨2, ![50000, 128]⟩ : Shape).Idx → EReal :=
  fun i => entry (fun k => x (ix2 (i 0) k)) (fun k => neighMean nx (i 0) k)
    (fun k => wl (ix2 (i 1) k)) (fun k => wr (ix2 (i 1) k))

end Sage

end
-- ==== Proof.Payload.lean ====
/-
  The value the kernel body stores, read at one entry (p, q) of its 1000 × 128 output block, as a function of the
  four blocks it loads. Over the extended reals a change of float format is the identity, the matrix product into a
  zero accumulator is the plain sum over the contracted coordinate, and the lane reduction over the neighbour axis is
  the plain sum over the 32 neighbours; so the stored entry is

      Σ_k xblk (p, k) · wlT (k, q)  +  Σ_k ((Σ_n nblk (p, n, k)) / 32) · wrT (k, q),

  the two inner products of the layer for row `p` of the block, with the weights as the body finds them: already
  transposed (contraction index first).
-/
import proofs.«130545_j7602092114107_1_alg».proof.Proof.Gen.KernelIdeal.Skeleton
import proofs.«130545_j7602092114107_1_alg».proof.Proof.LibPlainDot
import proofs.«130545_j7602092114107_1_alg».proof.Proof.Spec
import Idealize.ShloMosaic.Lib.Pipeline.Value

noncomputable section

open scoped BigOperators

namespace Sage.Body

open Idealize.ShloMosaic Idealize.ShloMosaic.ValueIdx Cert.KernelIdeal Cert.KernelIdeal.Gen

/-- The body's 1000 × 128 by 128 × 128 product into the zero accumulator, at (p, q): the sum over the contracted
    coordinate. The program's dimension numbers are the plain ones. -/
theorem product_at (a : FVec Ideal S1000x128 .bf16) (b : FVec Ideal S128x128 .bf16) (p : Fin 1000) (q : Fin 128) :
    matmul dot_S1000x128_S128x128_S1000x128_1_0_0_1_n_n none a b (constant S1000x128 .f32 0x00000000#32) (ix2 p q)
      = ∑ k : Fin 128, a (ix2 p k) * b (ix2 k q) :=
  PlainDot.matmul_zero_apply 1000 128 128 a b (ix2 p q)

/-- The body's reduction over the neighbour axis of a 1000 × 32 × 128 block, at (p, k): the sum over the 32
    neighbours of the block at (p, n, k). -/
theorem neighSum_at (v : FVec Ideal S1000x32x128 .f32) (p : Fin 1000) (k : Fin 128) :
    multiReduction .add [1] S1000x128 v 0x00000000#32 reduces_S1000x32x128_S1000x128 (.inl rfl) rfl (ix2 p k)
      = ∑ n : Fin 32, v (ix3 p n k) := by
  refine (Ideal.multiReduction_add_single v 0x00000000#32 reduces_S1000x32x128_S1000x128 (.inl rfl) rfl (ix2 p k)).trans ?_
  exact Finset.sum_congr rfl fun n _ => congrArg v (funext fun a => Fin.ext (by
    match a with
    | ⟨0, _⟩ => rfl
    | ⟨1, _⟩ => rfl
    | ⟨2, _⟩ => rfl))

/-- The stored value at (p, q): the layer's entry for row `p` of the block, from the loaded blocks. -/
theorem stored_at (nblk : FVec Ideal S1000x32x128 .f32) (xblk : FVec Ideal S1000x128 .f32) (wlT wrT : FVec Ideal S128x128 .bf16)
    (p : Fin 1000) (q : Fin 128) :
    k0_pay1 (F := Ideal) nblk xblk wlT wrT (ix2 p q)
      = Sage.entry (fun k => xblk (ix2 p k))
          (fun k => Ideal.div (∑ n : Fin 32, nblk (ix3 p n k)) (Ideal.ofBits .f32 0x42000000#32))
          (fun k => wlT (ix2 k q)) (fun k => wrT (ix2 k q)) := by
  unfold k0_pay1 Sage.entry
  dsimp only
  rw [shapeCast_self wlT, shapeCast_self wrT]
  refine (addf_apply _ _ _).trans (congrArg₂ (· + ·) ?_ ?_)
  · exact product_at _ _ p q
  · refine (product_at _ _ p q).trans (Finset.sum_congr rfl fun k _ => congrArg (· * wrT (ix2 k q)) ?_)
    refine (truncf_apply (φ := .f32) (ψ := .bf16) _ bitsLt_bf16_f32 (ix2 p k)).trans ((divf_apply _ _ _).trans ?_)
    exact congrArg (Ideal.div · _) (neighSum_at nblk p k)

end Sage.Body

end
-- ==== Proof.KernelValue.lean ====
/-
  The kernel's output array after the run is the layer's output array `Sage.out` of the four arguments.

  The grid has 50 points; point `t` works on rows 1000·t … 1000·t + 999. Its input blocks are rows of the node
  features and of the neighbour features at the same 1000 rows, and the two weight matrices whole; the weights the
  region finds are the arguments TRANSPOSED on the host before the launch (and narrowed, which changes nothing over the
  extended reals), so the block entry (k, o) is the argument's entry (o, k). The body's stored entry (p, o) is
  therefore the layer's entry for row 1000·t + p: point `t` writes back block `t` of `Sage.out`. The 50 output
  blocks tile the 50000 rows, so the array ends holding `Sage.out` everywhere.
-/
import proofs.«130545_j7602092114107_1_alg».proof.Proof.Gen.KernelIdeal.Value
import proofs.«130545_j7602092114107_1_alg».proof.Proof.Payload
import Idealize.ShloMosaic.Lib.StableHlo.Run

noncomputable section

open scoped BigOperators

namespace Sage.Kernel

open Idealize.ShloMosaic Idealize.ShloMosaic.TcCoe Idealize.SL.Sem Idealize.ShloMosaic.ValueIdx
open Cert.KernelIdeal Cert.KernelIdeal.Gen Cert.KernelIdeal.Value
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## The weights as the region finds them -/

/-- The left weight block's array: the first weight argument transposed (the narrowing is the identity). -/
theorem wlT_eq (c : Dev nD) :
    (V m c main_v1 : S128x128.Idx → EReal)
      = transpose S128x128 [1, 0] (m ((c : Thread nD τ).loc main_arg2)) transposes_S128x128_S128x128_1_0 := by
  dsimp only [Gen.V, Gen.hostOps0]; after_results; rfl

/-- The right weight block's array: the second weight argument transposed. -/
theorem wrT_eq (c : Dev nD) :
    (V m c main_v3 : S128x128.Idx → EReal)
      = transpose S128x128 [1, 0] (m ((c : Thread nD τ).loc main_arg3)) transposes_S128x128_S128x128_1_0 := by
  dsimp only [Gen.V, Gen.hostOps0]; after_results; rfl

/-! ## Where each window's block sits -/

/-- The block indices over the grid: the two row-blocked inputs move with the output's row block, every other block
    index is zero, and the output's row block is one of the 50. -/
theorem idx_facts : ∀ t : Fin cfg0.N,
    win0_0.index t (0 : Fin 2) = win0_4.index t (0 : Fin 2) ∧ win0_0.index t (1 : Fin 2) = 0
    ∧ win0_1.index t (0 : Fin 3) = win0_4.index t (0 : Fin 2) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 49 :=
  (by decide +kernel : ∀ t : Fin grid0.N, _)

/-- Every one of the 50 row blocks is some point's. -/
theorem idx_onto : ∀ b : Fin 50, ∃ t : Fin cfg0.N, win0_4.index t = ![b.val, 0] :=
  (by decide +kernel : ∀ b : Fin 50, ∃ t : Fin grid0.N, win0_4.index t = ![b.val, 0])

/-- The node-feature block at (p, k) is the argument at row `r` = 1000·(row block) + p. -/
theorem xblk_at (c : Dev nD) (t : Fin cfg0.N) (p : Fin 1000) (k : Fin 128) (r : Fin 50000)
    (hr : r.val = win0_4.index t (0 : Fin 2) * 1000 + p.val) :
    iblk m c 0 t (ix2 p k) = m ((c : Thread nD τ).loc main_arg0) (ix2 r k) := by
  obtain ⟨e0, e1, -⟩ := idx_facts t
  rw [← V_main_arg0 m c]
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 1000 + 1 * p.val = r.val; omega
  | ⟨1, _⟩ => show win0_0.index t (1 : Fin 2) * 128 + 1 * k.val = k.val; omega

/-- The neighbour-feature block at (p, n, k) is the argument at (r, n, k). -/
theorem nblk_at (c : Dev nD) (t : Fin cfg0.N) (p : Fin 1000) (n : Fin 32) (k : Fin 128) (r : Fin 50000)
    (hr : r.val = win0_4.index t (0 : Fin 2) * 1000 + p.val) :
    iblk m c 1 t (ix3 p n k) = m ((c : Thread nD τ).loc main_arg1) (ix3 r n k) := by
  obtain ⟨-, -, e2, e3, e4, -⟩ := idx_facts t
  rw [← V_main_arg1 m c]
  show V m c main_arg1 (((cfg0.win 1).blk t).view.emb (ix3 p n k)) = V m c main_arg1 (ix3 r n k)
  refine congrArg (V m c main_arg1) (funext fun a => Fin.ext ?_)
  match a with
  | ⟨0, _⟩ => show win0_1.index t (0 : Fin 3) * 1000 + 1 * p.val = r.val; omega
  | ⟨1, _⟩ => show win0_1.index t (1 : Fin 3) * 32 + 1 * n.val = n.val; omega
  | ⟨2, _⟩ => show win0_1.index t (2 : Fin 3) * 128 + 1 * k.val = k.val; omega

/-- The left weight block at (k, q) is the first weight argument at (o, k), `o` the output feature `q`. -/
theorem wlblk_at (c : Dev nD) (t : Fin cfg0.N) (k q o : Fin 128) (ho : o.val = q.val) :
    iblk m c 2 t (ix2 k q) = m ((c : Thread nD τ).loc main_arg2) (ix2 o k) := by
  obtain ⟨-, -, -, -, -, e5, e6, -⟩ := idx_facts t
  show (V m c main_v1 : S128x128.Idx → EReal) (((cfg0.win 2).blk t).view.emb (ix2 k q)) = _
  rw [wlT_eq]
  refine transpose_apply [1, 0] _ transposes_S128x128_S128x128_1_0 _ (ix2 o k) (fun b => ?_)
  match b with
  | ⟨0, _⟩ => show k.val = win0_2.index t (0 : Fin 2) * 128 + 1 * k.val; omega
  | ⟨1, _⟩ => show o.val = win0_2.index t (1 : Fin 2) * 128 + 1 * q.val; omega

/-- The right weight block at (k, q) is the second weight argument at (o, k). -/
theorem wrblk_at (c : Dev nD) (t : Fin cfg0.N) (k q o : Fin 128) (ho : o.val = q.val) :
    iblk m c 3 t (ix2 k q) = m ((c : Thread nD τ).loc main_arg3) (ix2 o k) := by
  obtain ⟨-, -, -, -, -, -, -, e7, e8, -⟩ := idx_facts t
  show (V m c main_v3 : S128x128.Idx → EReal) (((cfg0.win 3).blk t).view.emb (ix2 k q)) = _
  rw [wrT_eq]
  refine transpose_apply [1, 0] _ transposes_S128x128_S128x128_1_0 _ (ix2 o k) (fun b => ?_)
  match b with
  | ⟨0, _⟩ => show k.val = win0_3.index t (0 : Fin 2) * 128 + 1 * k.val; omega
  | ⟨1, _⟩ => show o.val = win0_3.index t (1 : Fin 2) * 128 + 1 * q.val; omega

/-! ## What a point writes back -/

/-- The layer's output array of the four arguments as launched. -/
abbrev result (c : Dev nD) : S50000x128.Idx → EReal :=
  Sage.out (m ((c : Thread nD τ).loc main_arg0)) (m ((c : Thread nD τ).loc main_arg1))
    (m ((c : Thread nD τ).loc main_arg2)) (m ((c : Thread nD τ).loc main_arg3))

/-- Point `t` writes back block `t` of the layer's output array. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero zeros2]
  simp only [View.ld_unit_zero (S := S1000x128) zeros2, View.ld_unit_zero (S := S1000x32x128) zeros3,
    View.ld_unit_zero (S := S128x128) zeros2]
  funext j
  obtain ⟨p, q, rfl⟩ : ∃ (p : Fin 1000) (q : Fin 128), j = ix2 p q := ⟨j 0, j 1, eq_ix2 j⟩
  obtain ⟨-, -, -, -, -, -, -, -, -, e9, e10⟩ := idx_facts t
  show k0_pay1 (F := Ideal) (iblk m c 1 t) (iblk m c 0 t) (iblk m c 2 t) (iblk m c 3 t) (ix2 p q)
    = result m c (((cfg0.win 4).blk t).view.emb (ix2 p q))
  refine (Sage.Body.stored_at (iblk m c 1 t) (iblk m c 0 t) (iblk m c 2 t) (iblk m c 3 t) p q).trans ?_
  have hr : ((((cfg0.win 4).blk t).view.emb (ix2 p q)) 0).val = win0_4.index t (0 : Fin 2) * 1000 + p.val := by
    show win0_4.index t (0 : Fin 2) * 1000 + 1 * p.val = _; omega
  have ho : ((((cfg0.win 4).blk t).view.emb (ix2 p q)) 1).val = q.val := by
    show win0_4.index t (1 : Fin 2) * 128 + 1 * q.val = _; omega
  unfold result Sage.out
  rw [show (fun k => iblk m c 0 t (ix2 p k)) = _ from funext fun k => xblk_at m c t p k _ hr,
    show (fun k => iblk m c 2 t (ix2 k q)) = _ from funext fun k => wlblk_at m c t k q _ ho,
    show (fun k => iblk m c 3 t (ix2 k q)) = _ from funext fun k => wrblk_at m c t k q _ ho]
  refine congrArg (fun f => Sage.entry _ f _ _) (funext fun k => ?_)
  unfold Sage.neighMean
  exact congrArg (Ideal.div · _) (Finset.sum_congr rfl fun n _ => nblk_at m c t p n k _ hr)

/-! ## The blocks tile the array -/

/-- An index is in point `t`'s output block iff each coordinate is in the block's range on its axis. -/
theorem mem_blk (t : Fin cfg0.N) (i : S50000x128.Idx) :
    i ∈ ((cfg0.win 4).blk t).view.set ↔ ∀ a : Fin 2, win0_4.index t a * S1000x128.size a ≤ (i a).val ∧ (i a).val < win0_4.index t a * S1000x128.size a + S1000x128.size a := by
  show i ∈ ((View.whole main_v4).slice (win0_4.rect t)).set ↔ _
  rw [View.set_slice_whole, Rect.mem_set_unit]
  exact Iff.rfl

/-- Row `r` is in the block of the point whose row block is `r / 1000`. -/
theorem cover (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ := idx_onto ⟨(i 0).val / 1000, by omega⟩
  have q0 : win0_4.index t (0 : Fin 2) = (i 0).val / 1000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 1000 ≤ (i 0).val ∧ (i 0).val < win0_4.index t (0 : Fin 2) * 1000 + 1000; omega
  | ⟨1, _⟩ => show win0_4.index t (1 : Fin 2) * 128 ≤ (i 1).val ∧ (i 1).val < win0_4.index t (1 : Fin 2) * 128 + 128; omega

/-- The output array after the run. -/
theorem final (c : Dev nD) : (dats m 0 c).arrAt 4 cfg0.N = result m c :=
  (dats m 0 c).arrAt_eq_of_cover 4 (result m c) (fun t _ => flushed_eq m c t) cover

/-- The kernel's run: the result array ends at the layer's output array of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Sage.Kernel

end
-- ==== Proof.RefValue.lean ====
/-
  The reference program's result, read one operation at a time, is the layer's output array `Sage.out` of its four
  arguments. The reference sums the neighbours from the initial value 0.0 (which adds nothing), divides by the
  splat of 32.0, transposes each weight matrix and contracts it on its first axis: at an output index (r, o) the
  transposed matrix at (k, o) is the matrix at (o, k), so each product is the inner product with row `o`.
-/
import proofs.«130545_j7602092114107_1_alg».proof.Proof.Gen.ReferenceIdeal.Read
import proofs.«130545_j7602092114107_1_alg».proof.Proof.Spec

noncomputable section

open scoped BigOperators

namespace Sage.Ref

open Idealize.ShloMosaic Idealize.ShloMosaic.ValueIdx Cert.ReferenceIdeal Cert.ReferenceIdeal.Read

/-- The mean stage at (r, k): the neighbourhood mean of the argument array. -/
theorem mean_at (nx : FVec Ideal S50000x32x128 .f32) (i : S50000x128.Idx) (k : Fin 128) :
    val_main_v2 (F := Ideal) nx (lidx_main_v6 i k) = Sage.neighMean nx (i 0) k := by
  rw [val_main_v2_apply, val_main_v0_apply, val_main_v1_apply, val_main_cst_0_apply, val_main_cst_apply]
  unfold Sage.neighMean
  rw [Ideal.hostDivf_def, Ideal.ofBits_def, Ideal.ofBits_def, Ideal.ofBits_zero_f32, zero_add]
  refine congrArg (Ideal.div · _) (Finset.sum_congr rfl fun n _ => congrArg nx (funext fun a => ?_))
  match a with
  | ⟨0, _⟩ => rfl
  | ⟨1, _⟩ => rfl
  | ⟨2, _⟩ => rfl

/-- A transposed weight matrix at (k, o) is the matrix at (o, k). -/
theorem wl_at (w : FVec Ideal S128x128 .f32) (i : S50000x128.Idx) (k : Fin 128) :
    val_main_v3 (F := Ideal) w (ridx_main_v4 i k) = w (ix2 (i 1) k) := by
  rw [val_main_v3_apply]
  exact congrArg w (funext fun a => by
    match a with
    | ⟨0, _⟩ => rfl
    | ⟨1, _⟩ => rfl)

theorem wr_at (w : FVec Ideal S128x128 .f32) (i : S50000x128.Idx) (k : Fin 128) :
    val_main_v5 (F := Ideal) w (ridx_main_v6 i k) = w (ix2 (i 1) k) := by
  rw [val_main_v5_apply]
  exact congrArg w (funext fun a => by
    match a with
    | ⟨0, _⟩ => rfl
    | ⟨1, _⟩ => rfl)

/-- The reference's last stage is the layer's output array. -/
theorem result_eq (x : FVec Ideal S50000x128 .f32) (nx : FVec Ideal S50000x32x128 .f32) (wl wr : FVec Ideal S128x128 .f32) :
    val_main_v7 (F := Ideal) x nx wl wr = Sage.out x nx wl wr := by
  funext i
  rw [val_main_v7_apply, val_main_v4_apply, val_main_v6_apply]
  unfold Sage.out Sage.entry
  refine congrArg₂ (· + ·) (Finset.sum_congr rfl fun k _ => ?_) (Finset.sum_congr rfl fun k _ => ?_)
  · rw [wl_at]
    exact congrArg (· * wl (ix2 (i 1) k)) (congrArg x (funext fun a => by
      match a with
      | ⟨0, _⟩ => rfl
      | ⟨1, _⟩ => rfl))
  · rw [wr_at, mean_at]

end Sage.Ref

end
-- ==== Proof.lean ====
/-
  The certificate of the neighbour-mean aggregation layer: for a node r and an output feature o,

      out (r, o) = Σ_k x (r, k) · W_l (o, k)  +  Σ_k ((Σ_n neigh (r, n, k)) / 32) · W_r (o, k).

  The kernel walks the 50000 nodes in 50 blocks of 1000 rows. For each block it sums the 32 neighbours of every
  row, divides by 32.0, and multiplies the block of node features and the block of means by the two weight matrices,
  which the host has transposed before the launch; the reference does the same on whole arrays. Over the extended
  reals the narrowing of the operands to a shorter float format is the identity, a matrix product is the plain sum over
  the contracted coordinate, and the reduction over the neighbours is the plain sum; the divisor 32.0 is the same word
  on both sides. So both programs compute the same sums of the same products in the same grouping: no algebraic law
  joins them, and finiteness of the inputs is never used.

  - `Proof/Spec.lean`: the layer as one function `Sage.out` of the four argument arrays.
  - `Proof/Payload.lean`: the value the kernel body stores, at an entry of its block.
  - `Proof/KernelValue.lean`: point t writes back block t of `Sage.out`; the blocks tile the array.
  - `Proof/RefValue.lean`: the reference's result is `Sage.out`.
  - `Proof/LibPlainDot.lean`: a plain matrix product read at an index.

  The three frames are the generated ones (the reference's is its run with the result dropped); the kernel's
  idealization rewrote nothing, so there is nothing to preserve.
-/
import proofs.«130545_j7602092114107_1_alg».proof.Defs
import proofs.«130545_j7602092114107_1_alg».proof.Proof.Gen.Kernel
import proofs.«130545_j7602092114107_1_alg».proof.Proof.Gen.Kernel.Skeleton
import proofs.«130545_j7602092114107_1_alg».proof.Proof.Gen.Kernel.Launch
import proofs.«130545_j7602092114107_1_alg».proof.Proof.Gen.Kernel.Points
import proofs.«130545_j7602092114107_1_alg».proof.Proof.Gen.Kernel.Frame
import proofs.«130545_j7602092114107_1_alg».proof.Proof.Gen.KernelIdeal
import proofs.«130545_j7602092114107_1_alg».proof.Proof.Gen.KernelIdeal.Skeleton
import proofs.«130545_j7602092114107_1_alg».proof.Proof.Gen.KernelIdeal.Launch
import proofs.«130545_j7602092114107_1_alg».proof.Proof.Gen.KernelIdeal.Points
import proofs.«130545_j7602092114107_1_alg».proof.Proof.Gen.KernelIdeal.Frame
import proofs.«130545_j7602092114107_1_alg».proof.Proof.Gen.ReferenceIdeal
import proofs.«130545_j7602092114107_1_alg».proof.Proof.Gen.KernelIdeal.Value
import proofs.«130545_j7602092114107_1_alg».proof.Proof.Gen.ReferenceIdeal.Run
import proofs.«130545_j7602092114107_1_alg».proof.Proof.Gen.ReferenceIdeal.Read
import proofs.«130545_j7602092114107_1_alg».proof.Proof.Gen.Pre_finite_inputs
import proofs.«130545_j7602092114107_1_alg».proof.Proof.KernelValue
import proofs.«130545_j7602092114107_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the layer's output array of the (agreeing) arguments. -/
theorem algebraic : Cert.algebraic_KernelIdeal_ReferenceIdeal := by
  intro m ρ m' ρ' _ hagree
  refine ⟨fun c => Sage.Kernel.result m c, Sage.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Sage.Ref.result_eq, (hagree c).1, (hagree c).2.1, (hagree c).2.2.1,
    (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
